-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 7
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x128, .f32⟩
  | .hbm, ⟨6, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v6 : BitVec 32 := Scalar.muli arg0 c400_i32
  let v7 : Index := Scalar.indexCast v6
  let c0_8 : Index := 0#32
  ![v7.toNat, 0]
def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x128_S128x128_1_0 : S128x128.Transposes [1, 0] S128x128
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  h_S400x128 : 0 < S400x128.numel
  concatenates_S200x128_S200x128_S400x128_d0 : Shape.Concatenates [S200x128, S200x128] S400x128 0
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  dot_S200x10000_S10000x128_S200x128_1_0_0_1_n_n_wf : DotDims.WF S200x10000 S10000x128 S200x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S10000x64 : Shape := ⟨2, ![10000, 64]⟩
abbrev S1x128 : Shape := ⟨2, ![1, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x64, .f32⟩
  | .hbm, ⟨5, _⟩ => ⟨S10000x64, .f32⟩
  | .hbm, ⟨6, _⟩ => ⟨S10000x64, .f32⟩
  | .hbm, ⟨7, _⟩ => ⟨S10000x64, .f32⟩
  | .hbm, ⟨8, _⟩ => ⟨S10000x128, .f32⟩
  | .hbm, ⟨9, _⟩ => ⟨S10000x128, .f32⟩
  | .hbm, ⟨10, _⟩ => ⟨S128x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S_, .f32⟩
  | .hbm, ⟨17, _⟩ => ⟨S10000x128, .f32⟩
  | .hbm, ⟨18, _⟩ => ⟨S10000x128, .i1⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  slices_S10000x128_S10000x64_0_0 : S10000x128.Slices ![0, 0] S10000x64
  slices_S10000x128_S10000x64_0_64 : S10000x128.Slices ![0, 64] S10000x64
  concatenates_S10000x64_S10000x64_S10000x128_d1 : Shape.Concatenates [S10000x64, S10000x64] S10000x128 1
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x64_S10000x64_1_0_0_1_n_n_wf : DotDims.WF S10000x10000 S10000x64 S10000x64 [1] [0] [0] [1] [] []
  dot_S10000x128_S128x128_S10000x128_1_0_0_1_n_n_wf : DotDims.WF S10000x128 S128x128 S10000x128 [1] [0] [0] [1] [] []

variable [Facts₀]

def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibSharedLaunch.lean ====
import Idealize.ShloMosaic.Lib.Pipeline.Frame

noncomputable section

/-! # The frame run of a one-region pipeline whose windows may share an array

A kernel handed one array through several input windows holds that array once, and the windows on it hold it
at shares that compose to the whole. The run below is the one-region frame run with the arrays' distinctness
replaced by the certificate's own account of how the buffers behind the arrays, each whole at its contents on
entering the region, are dealt among the windows (`hsplit`). The region's invariant is entered from, and
returned to, the core's scoped buffers that are no staging buffer. The conclusion is the frame run's usual post:
every window's array at what the write-backs leave, every other unscoped buffer as the region found it. -/

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}
variable {Λ₀ : SL.Sem.Labels} {P : Type} [Fintype P] [DecidableEq P] [∀ e, Nonempty (Val e)]

/-- THE FRAME RUN of a one-region pipeline whose windows may share an array. The layout facts are taken by name: the
    staging cells are pairwise distinct (`hinj`), the windows' layout facts hold with the arrays not required
    distinct (`hw`), every block is nonempty (`hne`), every array and every staging buffer is a whole buffer
    (`harr`, `hstage`). `hbody` is the body obligation at every point and `howed` says the data owe nothing;
    `hmain` is the program's shape up to the region, with the unscoped buffers' contents `V` there. In place of
    every array held whole by its one window, `hsplit` says how the distinct buffers behind the arrays, each whole at
    `V` on entry, make the proof data's arrays at point 0 (an array read through several windows dealt among them by
    shares). The data's invariant `Φ` is entered from the core's scoped buffers that are no staging buffer (`hin`)
    and yields them back after the last point (`hout`); no generator register is asked for or returned.
    Conclusion: at the launch memory `m` with zero counters, every weakly fair execution of the program on the
    TensorCores terminates, and every final state satisfies `FramePost`: each window's array holds
    `arrAt w N` (windows on one array agree), and every unscoped buffer that is no window's array holds what it held
    at the region's entry. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp (MT nD τ sig Unit Val ℕ (UR sig nD τ) ℕ))
      ⊢ (dats p c).arrays ((dats p c).arrAt · 0))
    (hin : ∀ c, (scopedRest (cfgs p).spec c : sProp (MT nD τ sig Unit Val ℕ (UR sig nD τ) ℕ)) ⊢ (dats p c).Φ 0)
    (hout : ∀ c, (dats p c).Φ (Fin.last (cfgs p).N) ⊢ (scopedRest (cfgs p).spec c : sProp (MT nD τ sig Unit Val ℕ (UR sig nD τ) ℕ))) :
    θ_run (Pipeline.defs (fun q => Cfg.toPCfg (Val := Val) (cfgs q)) defs₀) (onTc main) (s₀ m g) (FramePost cfgs dats p V) := by
  classical
  exact θ_run_region_noSem_shared (Ix := Unit) (Name := ℕ) (U := UR sig nD τ) (Lvl := ℕ) cfgs dats () hinj p hw emb₁ defs₀ 𝒱₀ m g main
    hbody hne harr hstage howed
    (Rounds.initOf (cells cfgs hinj) (launchToks cfgs hinj)) .rfl V hmain hsplit
    (fun _ => iprop(emp)) (fun _ => iprop(emp))
    (fun c => unscopedRest (Ix := Unit) (Name := ℕ) (U := UR sig nD τ) (Lvl := ℕ) (cfgs p).spec c (V c))
    (fun c => by
      iintro HU
      isplitr
      · iempintro
      · iexact HU)
    (fun c => (show _ ⊢ (scopedRest (cfgs p).spec c : sProp (MT nD τ sig Unit Val ℕ (UR sig nD τ) ℕ)) from by
      iintro ⟨-, HR⟩; iexact HR).trans (hin c))
    (fun c => (hout c).trans (by
      iintro HR
      isplitr
      · iempintro
      · iexact HR))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Idealize.ShloMosaic.Pipeline

end
-- ==== Proof.KFrame.lean ====
import proofs.«127754_g84293028151720_cont_9to1_m_1401_8_alg».proof.Proof.Gen.Kernel.Launch
import proofs.«127754_g84293028151720_cont_9to1_m_1401_8_alg».proof.Proof.Gen.Kernel.Skeleton
import proofs.«127754_g84293028151720_cont_9to1_m_1401_8_alg».proof.Proof.Gen.Kernel.Points
import proofs.«127754_g84293028151720_cont_9to1_m_1401_8_alg».proof.Proof.LibSharedLaunch
import Idealize.ShloMosaic.Lib.Pipeline.FrameBody
import Idealize.ShloMosaic.Lib.Ring
import Idealize.ShloMosaic.Lib.Tactic

set_option maxRecDepth 16384

noncomputable section

/-! # The aggregation kernel runs, and what it leaves

The program transposes the weight matrix and reshapes the bias to a row on the host, then runs one pipelined
kernel over 25 grid points. At point `t` the kernel is handed two consecutive slabs of 200 rows of the
adjacency matrix (rows `400 t … 400 t + 199` and `400 t + 200 … 400 t + 399`: two windows on the ONE adjacency
array), the whole feature matrix, the transposed weights and the bias row, and stores one tile of 400 output rows.
Because two input windows read one array, that array is held by the two windows at the two halves of the whole
share; every other array is held whole. Every input window's buffer holds the window's block at every point,
fetched there or not; the output tile is a function of the five input blocks and of the point (the rows of the
feature matrix the body adds are picked by the point). -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The core's arrays after the two host operations (the transposed weights, the bias as a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the two host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write neither argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window the body only reads holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The tile the body stores -/

abbrev rSlab : Rect S200x10000 := Rect.unit (s := S200x10000) ![0, 0] S200x10000.size inb_S200x10000_S200x10000_0_0
abbrev rFeat : Rect S10000x128 := Rect.unit (s := S10000x128) ![0, 0] S10000x128.size inb_S10000x128_S10000x128_0_0
/-- The 400 rows of the feature matrix that belong to point `i`'s output tile. -/
abbrev rRows (i : grid0.Coords) : Rect S10000x128 := Rect.unit (s := S10000x128) (k0_off1 i) S400x128.size (k0_off1_inb i)
abbrev rWt : Rect S128x128 := Rect.unit (s := S128x128) ![0, 0] S128x128.size inb_S128x128_S128x128_0_0
abbrev rBias : Rect S1x128 := Rect.unit (s := S1x128) ![0, 0] S1x128.size inb_S1x128_S1x128_0_0
abbrev rTile : Rect S400x128 := Rect.unit (s := S400x128) ![0, 0] S400x128.size inb_S400x128_S400x128_0_0

/-- What the output buffer holds after the body at grid coordinates `i`, from the five input blocks: the one
    store, which covers the buffer, of the body's arithmetic on what the loads read. -/
def tile (i : grid0.Coords) (a0 a1 : Vec F S200x10000 .f32) (x : Vec F S10000x128 .f32) (wt : Vec F S128x128 .f32)
    (b : Vec F S1x128 .f32) : Vec F S400x128 .f32 :=
  View.canon [⟨rTile, k0_pay1 (View.ld a0 rSlab) (View.ld x rFeat) (View.ld a1 rSlab) (View.ld x rFeat) (View.ld x (rRows i))
    (View.ld wt rWt) (View.ld b rBias)⟩]

/-- The one store covers the output buffer. -/
theorem tile_cover (p0 : Vec F S400x128 .f32) (y : S400x128.Idx) :
    ∃ pc ∈ ([⟨rTile, p0⟩] : List (View.Piece (Elt F) S400x128 .f32)), y ∈ pc.1.set :=
  View.cover_of_tiled [⟨rTile, p0⟩] S400x128.size (by rfl) y

/-! ## The body's triple -/

set_option maxHeartbeats 1000000 in
/-- The body on whole staging memrefs, the five inputs' at read contents and the output's at anything, runs to the
    continuation holding the inputs' as they were and the output's at `tile` of the inputs'. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x128 .f32) (harg6 : arg6.IsWhole)
    (a0 a1 : Vec F S200x10000 .f32) (x : Vec F S10000x128 .f32) (wt : Vec F S128x128 .f32) (b : Vec F S1x128 .f32) (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare wt ∗ owns (c : Thread nD τ) arg5 fullShare b ∗ (∃ d, owns (c : Thread nD τ) arg6 fullShare d)
        ∗ (iprop(owns (c : Thread nD τ) arg1 fullShare a0 ∗ owns (c : Thread nD τ) arg2 fullShare a1 ∗ owns (c : Thread nD τ) arg3 fullShare x
            ∗ owns (c : Thread nD τ) arg4 fullShare wt ∗ owns (c : Thread nD τ) arg5 fullShare b
            ∗ owns (c : Thread nD τ) arg6 fullShare (tile i a0 a1 x wt b)) -∗ K ⟨⟩))
      ⊢ wp frame (wpE (defs₀ (F := F)) Variants.none c none) E (cc0__agg_kernel i arg1 harg1 arg2 harg2 arg3 harg3 arg4 harg4 arg5 harg5 arg6 harg6) K := by
  simp only [cc0__agg_kernel_eq_skeleton]; unfold cc0__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_cover _)

/-! ## The pipeline's proof data -/

/-- The proof data of the pipeline on core `c`: the arrays as the region finds them; after the body at point `t` each
    input's buffer at its block and the output's at `tile` of the input blocks; between points only the core's other
    scoped buffers; the adjacency array held by its two windows at the two halves of the whole share, every other
    input array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tile (grid0.coords t) (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = tile (grid0.coords t) (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The adjacency array dealt between its two windows -/

/-- The five distinct buffers behind the six windows' arrays. -/
theorem arrImage : (Finset.univ.image (Pipeline.arrRef spec0)) = [main_arg1, main_arg0, main_v0, main_v1, main_v2].toFinset := by decide

/-- Those buffers, each whole at its contents on entering the region, one by one. -/
theorem arrBufs_eq (c : Dev nD) : (Pipeline.arrBufs spec0 c (V m c) : sProp 𝕄)
    = iprop((((c : Thread nD τ).loc main_arg1) ↦{fullShare} V m c main_arg1) ∗ (((c : Thread nD τ).loc main_arg0) ↦{fullShare} V m c main_arg0)
        ∗ (((c : Thread nD τ).loc main_v0) ↦{fullShare} V m c main_v0) ∗ (((c : Thread nD τ).loc main_v1) ↦{fullShare} V m c main_v1)
        ∗ (((c : Thread nD τ).loc main_v2) ↦{fullShare} V m c main_v2)) :=
  bigSep_eq_bigSepL_of_eq [main_arg1, main_arg0, main_v0, main_v1, main_v2] arrImage (by decide) _

/-- The share each window holds its array at: the two slab windows the two halves, every other the whole. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl

/-- Before any write-back a window's array holds what the region found. -/
theorem arrAt_zero (c : Dev nD) (w : Fin cfg0.W) : (dats m 0 c).arrAt w 0 = V m c (Pipeline.arrRef spec0 w) := A_eq m c w

/-- The windows' arrays at entry, window by window: each whole array's buffer at the window's share. -/
theorem arrays_eq (c : Dev nD) : ((dats m 0 c).arrays ((dats m 0 c).arrAt · 0) : sProp 𝕄)
    = iprop((((c : Thread nD τ).loc main_arg1) ↦{fullShare.left} V m c main_arg1) ∗ (((c : Thread nD τ).loc main_arg1) ↦{fullShare.right} V m c main_arg1)
        ∗ (((c : Thread nD τ).loc main_arg0) ↦{fullShare} V m c main_arg0) ∗ (((c : Thread nD τ).loc main_v0) ↦{fullShare} V m c main_v0)
        ∗ (((c : Thread nD τ).loc main_v1) ↦{fullShare} V m c main_v1) ∗ (((c : Thread nD τ).loc main_v2) ↦{fullShare} V m c main_v2)) := by
  unfold Dat.arrays
  rw [bigSep_W0]
  dsimp only
  simp only [View.set_whole]
  rw [share_0, share_1, share_2, share_3, share_4, share_5,
    arrAt_zero, arrAt_zero, arrAt_zero, arrAt_zero, arrAt_zero, arrAt_zero]

/-- On entering the region the buffers behind the windows' arrays, each whole, make the windows' arrays at their
    shares: the adjacency array's whole share is its two halves, one per slab window. -/
theorem arrays_split (c : Dev nD) :
    (Pipeline.arrBufs spec0 c (V m c) : sProp 𝕄) ⊢ (dats m 0 c).arrays ((dats m 0 c).arrAt · 0) := by
  rw [arrBufs_eq, arrays_eq]
  have hhalves : ((((c : Thread nD τ).loc main_arg1) ↦{fullShare} V m c main_arg1 : sProp 𝕄))
      ⊢ iprop((((c : Thread nD τ).loc main_arg1) ↦{fullShare.left} V m c main_arg1) ∗ (((c : Thread nD τ).loc main_arg1) ↦{fullShare.right} V m c main_arg1)) :=
    (pointsTo_share (PosShare.mem_left_op_right fullShare)).1
  refine (sep_mono hhalves .rfl).trans ?_
  iintro ⟨⟨HAl, HAr⟩, HX, HW, HB, HO⟩
  isplitl [HAl]; · iexact HAl
  isplitl [HAr]; · iexact HAr
  isplitl [HX]; · iexact HX
  isplitl [HW]; · iexact HW
  isplitl [HB]; · iexact HB
  iexact HO

/-! ## The run and the frame -/

set_option backward.isDefEq.respectTransparency.types false in
/-- Every weakly fair execution of the program terminates, and every final state has each window's array at what the
    write-backs leave and every other array as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := arrays_split m) (hin := fun _ => .rfl) (hout := fun _ => .rfl)

/-- The program runs to the end and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Hand

end
-- ==== Proof.KIFrame.lean ====
import proofs.«127754_g84293028151720_cont_9to1_m_1401_8_alg».proof.Proof.Gen.KernelIdeal.Launch
import proofs.«127754_g84293028151720_cont_9to1_m_1401_8_alg».proof.Proof.Gen.KernelIdeal.Skeleton
import proofs.«127754_g84293028151720_cont_9to1_m_1401_8_alg».proof.Proof.Gen.KernelIdeal.Points
import proofs.«127754_g84293028151720_cont_9to1_m_1401_8_alg».proof.Proof.LibSharedLaunch
import Idealize.ShloMosaic.Lib.Pipeline.FrameBody
import Idealize.ShloMosaic.Lib.Ring
import Idealize.ShloMosaic.Lib.Tactic

set_option maxRecDepth 16384

noncomputable section

/-! # The aggregation kernel runs, and what it leaves

The program transposes the weight matrix and reshapes the bias to a row on the host, then runs one pipelined
kernel over 25 grid points. At point `t` the kernel is handed two consecutive slabs of 200 rows of the
adjacency matrix (rows `400 t … 400 t + 199` and `400 t + 200 … 400 t + 399`: two windows on the ONE adjacency
array), the whole feature matrix, the transposed weights and the bias row, and stores one tile of 400 output rows.
Because two input windows read one array, that array is held by the two windows at the two halves of the whole
share; every other array is held whole. Every input window's buffer holds the window's block at every point,
fetched there or not; the output tile is a function of the five input blocks and of the point (the rows of the
feature matrix the body adds are picked by the point). -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The core's arrays after the two host operations (the transposed weights, the bias as a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the two host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write neither argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window the body only reads holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The tile the body stores -/

abbrev rSlab : Rect S200x10000 := Rect.unit (s := S200x10000) ![0, 0] S200x10000.size inb_S200x10000_S200x10000_0_0
abbrev rFeat : Rect S10000x128 := Rect.unit (s := S10000x128) ![0, 0] S10000x128.size inb_S10000x128_S10000x128_0_0
/-- The 400 rows of the feature matrix that belong to point `i`'s output tile. -/
abbrev rRows (i : grid0.Coords) : Rect S10000x128 := Rect.unit (s := S10000x128) (k0_off1 i) S400x128.size (k0_off1_inb i)
abbrev rWt : Rect S128x128 := Rect.unit (s := S128x128) ![0, 0] S128x128.size inb_S128x128_S128x128_0_0
abbrev rBias : Rect S1x128 := Rect.unit (s := S1x128) ![0, 0] S1x128.size inb_S1x128_S1x128_0_0
abbrev rTile : Rect S400x128 := Rect.unit (s := S400x128) ![0, 0] S400x128.size inb_S400x128_S400x128_0_0

/-- What the output buffer holds after the body at grid coordinates `i`, from the five input blocks: the one
    store, which covers the buffer, of the body's arithmetic on what the loads read. -/
def tile (i : grid0.Coords) (a0 a1 : Vec F S200x10000 .f32) (x : Vec F S10000x128 .f32) (wt : Vec F S128x128 .f32)
    (b : Vec F S1x128 .f32) : Vec F S400x128 .f32 :=
  View.canon [⟨rTile, k0_pay1 (View.ld a0 rSlab) (View.ld x rFeat) (View.ld a1 rSlab) (View.ld x rFeat) (View.ld x (rRows i))
    (View.ld wt rWt) (View.ld b rBias)⟩]

/-- The one store covers the output buffer. -/
theorem tile_cover (p0 : Vec F S400x128 .f32) (y : S400x128.Idx) :
    ∃ pc ∈ ([⟨rTile, p0⟩] : List (View.Piece (Elt F) S400x128 .f32)), y ∈ pc.1.set :=
  View.cover_of_tiled [⟨rTile, p0⟩] S400x128.size (by rfl) y

/-! ## The body's triple -/

set_option maxHeartbeats 1000000 in
/-- The body on whole staging memrefs, the five inputs' at read contents and the output's at anything, runs to the
    continuation holding the inputs' as they were and the output's at `tile` of the inputs'. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x128 .f32) (harg6 : arg6.IsWhole)
    (a0 a1 : Vec F S200x10000 .f32) (x : Vec F S10000x128 .f32) (wt : Vec F S128x128 .f32) (b : Vec F S1x128 .f32) (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare wt ∗ owns (c : Thread nD τ) arg5 fullShare b ∗ (∃ d, owns (c : Thread nD τ) arg6 fullShare d)
        ∗ (iprop(owns (c : Thread nD τ) arg1 fullShare a0 ∗ owns (c : Thread nD τ) arg2 fullShare a1 ∗ owns (c : Thread nD τ) arg3 fullShare x
            ∗ owns (c : Thread nD τ) arg4 fullShare wt ∗ owns (c : Thread nD τ) arg5 fullShare b
            ∗ owns (c : Thread nD τ) arg6 fullShare (tile i a0 a1 x wt b)) -∗ K ⟨⟩))
      ⊢ wp frame (wpE (defs₀ (F := F)) Variants.none c none) E (cc0__agg_kernel i arg1 harg1 arg2 harg2 arg3 harg3 arg4 harg4 arg5 harg5 arg6 harg6) K := by
  simp only [cc0__agg_kernel_eq_skeleton]; unfold cc0__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_cover _)

/-! ## The pipeline's proof data -/

/-- The proof data of the pipeline on core `c`: the arrays as the region finds them; after the body at point `t` each
    input's buffer at its block and the output's at `tile` of the input blocks; between points only the core's other
    scoped buffers; the adjacency array held by its two windows at the two halves of the whole share, every other
    input array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tile (grid0.coords t) (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = tile (grid0.coords t) (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The adjacency array dealt between its two windows -/

/-- The five distinct buffers behind the six windows' arrays. -/
theorem arrImage : (Finset.univ.image (Pipeline.arrRef spec0)) = [main_arg1, main_arg0, main_v0, main_v1, main_v2].toFinset := by decide

/-- Those buffers, each whole at its contents on entering the region, one by one. -/
theorem arrBufs_eq (c : Dev nD) : (Pipeline.arrBufs spec0 c (V m c) : sProp 𝕄)
    = iprop((((c : Thread nD τ).loc main_arg1) ↦{fullShare} V m c main_arg1) ∗ (((c : Thread nD τ).loc main_arg0) ↦{fullShare} V m c main_arg0)
        ∗ (((c : Thread nD τ).loc main_v0) ↦{fullShare} V m c main_v0) ∗ (((c : Thread nD τ).loc main_v1) ↦{fullShare} V m c main_v1)
        ∗ (((c : Thread nD τ).loc main_v2) ↦{fullShare} V m c main_v2)) :=
  bigSep_eq_bigSepL_of_eq [main_arg1, main_arg0, main_v0, main_v1, main_v2] arrImage (by decide) _

/-- The share each window holds its array at: the two slab windows the two halves, every other the whole. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl

/-- Before any write-back a window's array holds what the region found. -/
theorem arrAt_zero (c : Dev nD) (w : Fin cfg0.W) : (dats m 0 c).arrAt w 0 = V m c (Pipeline.arrRef spec0 w) := A_eq m c w

/-- The windows' arrays at entry, window by window: each whole array's buffer at the window's share. -/
theorem arrays_eq (c : Dev nD) : ((dats m 0 c).arrays ((dats m 0 c).arrAt · 0) : sProp 𝕄)
    = iprop((((c : Thread nD τ).loc main_arg1) ↦{fullShare.left} V m c main_arg1) ∗ (((c : Thread nD τ).loc main_arg1) ↦{fullShare.right} V m c main_arg1)
        ∗ (((c : Thread nD τ).loc main_arg0) ↦{fullShare} V m c main_arg0) ∗ (((c : Thread nD τ).loc main_v0) ↦{fullShare} V m c main_v0)
        ∗ (((c : Thread nD τ).loc main_v1) ↦{fullShare} V m c main_v1) ∗ (((c : Thread nD τ).loc main_v2) ↦{fullShare} V m c main_v2)) := by
  unfold Dat.arrays
  rw [bigSep_W0]
  dsimp only
  simp only [View.set_whole]
  rw [share_0, share_1, share_2, share_3, share_4, share_5,
    arrAt_zero, arrAt_zero, arrAt_zero, arrAt_zero, arrAt_zero, arrAt_zero]

/-- On entering the region the buffers behind the windows' arrays, each whole, make the windows' arrays at their
    shares: the adjacency array's whole share is its two halves, one per slab window. -/
theorem arrays_split (c : Dev nD) :
    (Pipeline.arrBufs spec0 c (V m c) : sProp 𝕄) ⊢ (dats m 0 c).arrays ((dats m 0 c).arrAt · 0) := by
  rw [arrBufs_eq, arrays_eq]
  have hhalves : ((((c : Thread nD τ).loc main_arg1) ↦{fullShare} V m c main_arg1 : sProp 𝕄))
      ⊢ iprop((((c : Thread nD τ).loc main_arg1) ↦{fullShare.left} V m c main_arg1) ∗ (((c : Thread nD τ).loc main_arg1) ↦{fullShare.right} V m c main_arg1)) :=
    (pointsTo_share (PosShare.mem_left_op_right fullShare)).1
  refine (sep_mono hhalves .rfl).trans ?_
  iintro ⟨⟨HAl, HAr⟩, HX, HW, HB, HO⟩
  isplitl [HAl]; · iexact HAl
  isplitl [HAr]; · iexact HAr
  isplitl [HX]; · iexact HX
  isplitl [HW]; · iexact HW
  isplitl [HB]; · iexact HB
  iexact HO

/-! ## The run and the frame -/

set_option backward.isDefEq.respectTransparency.types false in
/-- Every weakly fair execution of the program terminates, and every final state has each window's array at what the
    write-backs leave and every other array as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := arrays_split m) (hin := fun _ => .rfl) (hout := fun _ => .rfl)

/-- The program runs to the end and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Hand

end
-- ==== Proof.Spec.lean ====
import Idealize.ShloMosaic.PureOps.Ideal
import Idealize.ShloMosaic.PureOps.Ideal.Laws
import Idealize.ShloMosaic.Lib.ValueIdx

noncomputable section

open scoped BigOperators

/-! # One graph-aggregation layer, entry by entry

For node features `X` (10000 nodes, 128 features), a dense adjacency `A`, a weight matrix `W` and a bias `b`,
the layer's output at node `r`, feature `j` is

  `leaky (∑ d, (X r d + ∑ k, A r k * X k d) * W j d + b j)`

on the extended reals: a node's features plus its neighbours' weighted sum, the linear map with the weight
matrix read transposed, the bias, and the leaky rectifier with the slope the 32-bit word `0x3C23D70A` denotes. -/

namespace Cert.Agg

open Idealize.ShloMosaic Idealize.ShloMosaic.ValueIdx

/-- The leaky rectifier on one extended real: `z` where `z ≥ 0` compares true, otherwise `z` scaled by the slope
    (kept as the library's compare, select and word-to-value constants, so that the same word on both sides is
    never evaluated). -/
def leaky (z : Ideal .f32) : Ideal .f32 :=
  Scalar.select (FloatOps.cmpf (F := Ideal) .oge z (FloatOps.ofBits (F := Ideal) .f32 0x00000000#32)) z
    (FloatOps.mulf (F := Ideal) (FloatOps.ofBits (F := Ideal) .f32 0x3C23D70A#32) z)

/-- A node's own feature plus the adjacency-weighted sum of every node's feature. -/
def mixed (X : FVec Ideal ⟨2, ![10000, 128]⟩ .f32) (A : FVec Ideal ⟨2, ![10000, 10000]⟩ .f32) (r : Fin 10000) (d : Fin 128) : EReal :=
  X (ix2 r d) + ∑ k : Fin 10000, A (ix2 r k) * X (ix2 k d)

/-- The linear layer on the mixed features: row `j` of the weight matrix against them, plus the bias. -/
def lin (X : FVec Ideal ⟨2, ![10000, 128]⟩ .f32) (A : FVec Ideal ⟨2, ![10000, 10000]⟩ .f32) (W : FVec Ideal ⟨2, ![128, 128]⟩ .f32)
    (b : FVec Ideal ⟨1, ![128]⟩ .f32) (r : Fin 10000) (j : Fin 128) : EReal :=
  (∑ d : Fin 128, mixed X A r d * W (ix2 j d)) + b (ix1 j)

/-- The layer's output array. -/
def out (X : FVec Ideal ⟨2, ![10000, 128]⟩ .f32) (A : FVec Ideal ⟨2, ![10000, 10000]⟩ .f32) (W : FVec Ideal ⟨2, ![128, 128]⟩ .f32)
    (b : FVec Ideal ⟨1, ![128]⟩ .f32) : FVec Ideal ⟨2, ![10000, 128]⟩ .f32 :=
  fun i => leaky (lin X A W b (i 0) (i 1))

end Cert.Agg

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.KIPayload.lean ====
import proofs.«127754_g84293028151720_cont_9to1_m_1401_8_alg».proof.Proof.Gen.KernelIdeal.Skeleton
import proofs.«127754_g84293028151720_cont_9to1_m_1401_8_alg».proof.Proof.Spec
import proofs.«127754_g84293028151720_cont_9to1_m_1401_8_alg».proof.Proof.LibPlainDot
import Idealize.ShloMosaic.Lib.ValueIdx
import Idealize.ShloMosaic.Lib.ValueLayout
import Idealize.ShloMosaic.Lib.Pipeline.Value

noncomputable section

open scoped BigOperators

namespace Cert.KernelIdeal.HandValue

open Cert.KernelIdeal Cert.KernelIdeal.Gen Idealize.ShloMosaic Idealize.ShloMosaic.ValueIdx

/-- The pointwise tail at one entry: the leaky rectifier of the sum of the two summands' entries. -/
theorem tail_apply (a b : FVec Ideal S400x128 .f32) (q : Fin 400) (j : Fin 128) :
    select (cmpf .oge (addf a b) (broadcast S400x128 (Scalar.ofBits (F := Ideal) .f32 0x00000000#32)))
        (addf a b) (mulf (broadcast S400x128 (Scalar.ofBits (F := Ideal) .f32 0x3C23D70A#32)) (addf a b)) (ix2 q j)
      = Cert.Agg.leaky (a (ix2 q j) + b (ix2 q j)) := rfl

/-- The 400 by 128 by 128 product into the zero accumulator at one entry. -/
theorem prod_apply (l : FVec Ideal S400x128 .f32) (r : FVec Ideal S128x128 .f32) (q : Fin 400) (j : Fin 128) :
    matmul dot_S400x128_S128x128_S400x128_1_0_0_1_n_n none l r (constant (F := Ideal) S400x128 .f32 0x00000000#32) (ix2 q j)
      = ∑ d : Fin 128, l (ix2 q d) * r (ix2 d j) :=
  Cert.PlainDot.matmul_zero_apply dot_S400x128_S128x128_S400x128_1_0_0_1_n_n rfl none l r (ix2 q j)

/-- The 200 by 10000 by 128 product into the zero accumulator at one entry. -/
theorem slab_apply (l : FVec Ideal S200x10000 .f32) (r : FVec Ideal S10000x128 .f32) (p : Fin 200) (d : Fin 128) :
    matmul dot_S200x10000_S10000x128_S200x128_1_0_0_1_n_n none l r (constant (F := Ideal) S200x128 .f32 0x00000000#32) (ix2 p d)
      = ∑ k : Fin 10000, l (ix2 p k) * r (ix2 k d) :=
  Cert.PlainDot.matmul_zero_apply dot_S200x10000_S10000x128_S200x128_1_0_0_1_n_n rfl none l r (ix2 p d)

/-- Two 200-row pieces laid one under the other, at one entry: the first piece for the first 200 rows, the second
    piece, 200 rows up, for the rest. -/
theorem cat_apply (x y : FVec Ideal S200x128 .f32) (q : Fin 400) (d : Fin 128) :
    concatenate S400x128 0 [⟨S200x128, x⟩, ⟨S200x128, y⟩] concatenates_S200x128_S200x128_S400x128_d0 (ix2 q d)
      = if h : q.val < 200 then x (ix2 (⟨q.val, h⟩ : Fin 200) d)
          else y (ix2 (⟨q.val - 200, by have := q.isLt; omega⟩ : Fin 200) d) := by
  by_cases h : q.val < 200
  · rw [dif_pos h]
    exact concatenate_pair_apply_left 0 x y concatenates_S200x128_S200x128_S400x128_d0 (ix2 q d) rfl
      (ix2 (⟨q.val, h⟩ : Fin 200) d) (fun b => by
        match b with
        | ⟨0, _⟩ => rfl
        | ⟨1, _⟩ => rfl)
  · rw [dif_neg h]
    exact concatenate_pair_apply_right 0 x y concatenates_S200x128_S200x128_S400x128_d0 (ix2 q d) rfl rfl
      (ix2 (⟨q.val - 200, by have := q.isLt; omega⟩ : Fin 200) d)
      (fun b hb => by
        match b with
        | ⟨0, _⟩ => exact absurd rfl hb
        | ⟨1, _⟩ => rfl)
      (by show q.val - 200 + 200 = q.val; omega)

/-- The body's arithmetic at one entry `(q, j)` of the 400-row tile, on the extended reals: the leaky rectifier of
    the bias plus the sum over features `d` of (the tile's own feature row entry plus the adjacency slab row times
    the feature column — the first slab for the first 200 rows, the second for the rest) times the transposed
    weight entry. -/
theorem pay_apply (v0 : Vec Ideal S200x10000 .f32) (v1 : Vec Ideal S10000x128 .f32) (v3 : Vec Ideal S200x10000 .f32)
    (v4 : Vec Ideal S10000x128 .f32) (v8 : Vec Ideal S400x128 .f32) (v11 : Vec Ideal S128x128 .f32) (v14 : Vec Ideal S1x128 .f32)
    (q : Fin 400) (j : Fin 128) :
    k0_pay1 (F := Ideal) v0 v1 v3 v4 v8 v11 v14 (ix2 q j)
      = Cert.Agg.leaky ((∑ d : Fin 128,
          (v8 (ix2 q d) + (if h : q.val < 200 then ∑ k : Fin 10000, v0 (ix2 (⟨q.val, h⟩ : Fin 200) k) * v1 (ix2 k d)
              else ∑ k : Fin 10000, v3 (ix2 (⟨q.val - 200, by have := q.isLt; omega⟩ : Fin 200) k) * v4 (ix2 k d)))
            * v11 (ix2 d j)) + v14 (ix2 (0 : Fin 1) j)) := by
  unfold k0_pay1
  refine (tail_apply _ _ q j).trans (congrArg Cert.Agg.leaky ?_)
  refine congrArg₂ (· + ·) ?_ ?_
  · refine (prod_apply _ _ q j).trans (Finset.sum_congr rfl fun d _ => ?_)
    refine congrArg₂ (· * ·) ?_ (congrFun (shapeCast_self v11 _) (ix2 d j))
    refine congrArg (v8 (ix2 q d) + ·) ?_
    refine (cat_apply _ _ q d).trans ?_
    by_cases h : q.val < 200
    · rw [dif_pos h, dif_pos h]
      exact slab_apply v0 v1 ⟨q.val, h⟩ d
    · rw [dif_neg h, dif_neg h]
      exact slab_apply v3 v4 _ d
  · exact (broadcastTo_1b_ab_apply _ _ q j).trans (congrFun (shapeCast_self v14 _) _)

end Cert.KernelIdeal.HandValue

end
-- ==== Proof.KIValue.lean ====
import proofs.«127754_g84293028151720_cont_9to1_m_1401_8_alg».proof.Proof.KIFrame
import proofs.«127754_g84293028151720_cont_9to1_m_1401_8_alg».proof.Proof.KIPayload
import proofs.«127754_g84293028151720_cont_9to1_m_1401_8_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- The zero offsets, however spelt. -/
theorem zero_offsets : (![0, 0] : Fin 2 → Nat) = fun _ => 0 := funext fun a => by fin_cases a <;> rfl

/-- The transposed weights, as the host wrote them. -/
theorem weights_transposed (c : Dev nD) :
    (V m c main_v0 : S128x128.Idx → EReal)
      = transpose S128x128 [1, 0] (m ((c.tc : Thread nD τ).loc main_arg2)) transposes_S128x128_S128x128_1_0 := by
  dsimp only [V, hostOps0]; after_results

/-- The bias row, as the host wrote it. -/
theorem bias_row (c : Dev nD) :
    (V m c main_v1 : S1x128.Idx → EReal)
      = shapeCast S1x128 (m ((c.tc : Thread nD τ).loc main_arg3)) shapeCasts_S128_S1x128 := by
  dsimp only [V, hostOps0]; after_results; rfl

/-- The windows' block indices at every point, decided once over the 25 points: the two slabs are blocks `2 t` and
    `2 t + 1` of the adjacency matrix, the features, the weights and the bias are whole, the output is block `t`,
    and the point's one grid coordinate is `t`. -/
theorem block_indices : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ ((grid0.coords t) 0).val = t.val :=
  (by decide +kernel : ∀ t : Fin grid0.N, _)

/-- The first slab at point `t` is rows `400 t … 400 t + 199` of the adjacency matrix. -/
theorem slab_first_apply (c : Dev nD) (t : Fin cfg0.N) (x : S200x10000.Idx) (k : S10000x10000.Idx)
    (hk0 : (k 0).val = 400 * t.val + (x 0).val) (hk1 : (k 1).val = (x 1).val) :
    (iblk m c 0 t : Vec Ideal S200x10000 .f32) x
      = (m ((c.tc : Thread nD τ).loc main_arg1) : S10000x10000.Idx → EReal) k := by
  obtain ⟨e0, e1, -⟩ := block_indices t
  unfold iblk
  rw [View.read_apply]
  show V m c main_arg1 _ = m (c.tc.loc main_arg1) _
  rw [V_main_arg1]
  congr 1
  funext a
  apply Fin.ext
  match a with
  | ⟨0, _⟩ => show win0_0.index t (0 : Fin 2) * 200 + 1 * (x 0).val = (k 0).val; rw [e0, hk0]; omega
  | ⟨1, _⟩ => show win0_0.index t (1 : Fin 2) * 10000 + 1 * (x 1).val = (k 1).val; rw [e1, hk1]; omega

/-- The second slab at point `t` is rows `400 t + 200 … 400 t + 399` of the adjacency matrix. -/
theorem slab_second_apply (c : Dev nD) (t : Fin cfg0.N) (x : S200x10000.Idx) (k : S10000x10000.Idx)
    (hk0 : (k 0).val = 400 * t.val + 200 + (x 0).val) (hk1 : (k 1).val = (x 1).val) :
    (iblk m c 1 t : Vec Ideal S200x10000 .f32) x
      = (m ((c.tc : Thread nD τ).loc main_arg1) : S10000x10000.Idx → EReal) k := by
  obtain ⟨-, -, e0, e1, -⟩ := block_indices t
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 200 + 1 * (x 0).val = (k 0).val; rw [e0, hk0]; omega
  | ⟨1, _⟩ => show win0_1.index t (1 : Fin 2) * 10000 + 1 * (x 1).val = (k 1).val; rw [e1, hk1]; omega

/-- The feature window's block at every point is the whole feature matrix. -/
theorem features_apply (c : Dev nD) (t : Fin cfg0.N) (x : S10000x128.Idx) :
    (iblk m c 2 t : Vec Ideal S10000x128 .f32) x
      = (m ((c.tc : Thread nD τ).loc main_arg0) : S10000x128.Idx → EReal) x := by
  obtain ⟨-, -, -, -, e0, e1, -⟩ := block_indices t
  unfold iblk
  rw [View.read_apply]
  show V m c main_arg0 _ = m (c.tc.loc main_arg0) _
  rw [V_main_arg0]
  congr 1
  funext a
  apply Fin.ext
  match a with
  | ⟨0, _⟩ => show win0_2.index t (0 : Fin 2) * 10000 + 1 * (x 0).val = (x 0).val; rw [e0]; omega
  | ⟨1, _⟩ => show win0_2.index t (1 : Fin 2) * 128 + 1 * (x 1).val = (x 1).val; rw [e1]; omega

/-- The weight window's block at every point is the transposed weight matrix. -/
theorem weights_apply (c : Dev nD) (t : Fin cfg0.N) (d j : Fin 128) :
    (iblk m c 3 t : Vec Ideal S128x128 .f32) (ix2 d j)
      = (m ((c.tc : Thread nD τ).loc main_arg2) : S128x128.Idx → EReal) (ix2 j d) := by
  obtain ⟨-, -, -, -, -, -, e0, e1, -⟩ := block_indices t
  unfold iblk
  rw [View.read_apply]
  show V m c main_v0 _ = m (c.tc.loc main_arg2) _
  rw [weights_transposed]
  refine Eq.trans (congrArg _ ?_) (transpose_ix2_apply _ transposes_S128x128_S128x128_1_0 d j)
  funext a
  apply Fin.ext
  match a with
  | ⟨0, _⟩ => show win0_3.index t (0 : Fin 2) * 128 + 1 * d.val = d.val; rw [e0]; omega
  | ⟨1, _⟩ => show win0_3.index t (1 : Fin 2) * 128 + 1 * j.val = j.val; rw [e1]; omega

/-- The bias window's block at every point is the bias as a row. -/
theorem bias_apply (c : Dev nD) (t : Fin cfg0.N) (j : Fin 128) :
    (iblk m c 4 t : Vec Ideal S1x128 .f32) (ix2 (0 : Fin 1) j)
      = (m ((c.tc : Thread nD τ).loc main_arg3) : S128.Idx → EReal) (ix1 j) := by
  obtain ⟨-, -, -, -, -, -, -, -, e0, e1, -⟩ := block_indices t
  unfold iblk
  rw [View.read_apply]
  show V m c main_v1 _ = m (c.tc.loc main_arg3) _
  rw [bias_row]
  refine Eq.trans (congrArg _ ?_) (shapeCast_a_1a_apply _ shapeCasts_S128_S1x128 (0 : Fin 1) j)
  funext a
  apply Fin.ext
  match a with
  | ⟨0, _⟩ => show win0_4.index t (0 : Fin 2) * 1 + 1 * 0 = 0; rw [e0]
  | ⟨1, _⟩ => show win0_4.index t (1 : Fin 2) * 128 + 1 * j.val = j.val; rw [e1]; omega

/-- One entry of the tile at the `n`-th point is the layer's output at row `400 n + q`, whenever the loaded
    blocks are the rows of the arrays that belong to that point. -/
theorem tile_entry (X : S10000x128.Idx → EReal) (A : S10000x10000.Idx → EReal) (W : S128x128.Idx → EReal)
    (b : S128.Idx → EReal) (n : Nat) (hn : n < 25)
    (a0 a1 : Vec Ideal S200x10000 .f32) (x : Vec Ideal S10000x128 .f32) (xr : Vec Ideal S400x128 .f32)
    (wt : Vec Ideal S128x128 .f32) (bb : Vec Ideal S1x128 .f32)
    (ha0 : ∀ (p : Fin 200) (k : Fin 10000),
      a0 (ix2 p k) = A (ix2 (⟨400 * n + p.val, by have := p.isLt; omega⟩ : Fin 10000) k))
    (ha1 : ∀ (p : Fin 200) (k : Fin 10000),
      a1 (ix2 p k) = A (ix2 (⟨400 * n + 200 + p.val, by have := p.isLt; omega⟩ : Fin 10000) k))
    (hx : ∀ (k : Fin 10000) (d : Fin 128), x (ix2 k d) = X (ix2 k d))
    (hxr : ∀ (q : Fin 400) (d : Fin 128),
      xr (ix2 q d) = X (ix2 (⟨400 * n + q.val, by have := q.isLt; omega⟩ : Fin 10000) d))
    (hwt : ∀ d j : Fin 128, wt (ix2 d j) = W (ix2 j d))
    (hb : ∀ j : Fin 128, bb (ix2 (0 : Fin 1) j) = b (ix1 j))
    (q : Fin 400) (j : Fin 128) :
    k0_pay1 (F := Ideal) a0 x a1 x xr wt bb (ix2 q j)
      = Cert.Agg.out X A W b (ix2 (⟨400 * n + q.val, by have := q.isLt; omega⟩ : Fin 10000) j) := by
  rw [pay_apply]
  show Cert.Agg.leaky _ = Cert.Agg.leaky (Cert.Agg.lin X A W b (⟨400 * n + q.val, _⟩ : Fin 10000) j)
  unfold Cert.Agg.lin Cert.Agg.mixed
  rw [hb]
  congr 2
  refine Finset.sum_congr rfl fun d _ => ?_
  rw [hxr, hwt]
  congr 2
  split
  · rename_i h
    refine Finset.sum_congr rfl fun k _ => ?_
    rw [ha0, hx]
  · rename_i h
    refine Finset.sum_congr rfl fun k _ => ?_
    rw [ha1, hx]
    have e : (⟨400 * n + 200 + (q.val - 200), by have := q.isLt; omega⟩ : Fin 10000)
        = ⟨400 * n + q.val, by have := q.isLt; omega⟩ := Fin.ext (by show 400 * n + 200 + (q.val - 200) = 400 * n + q.val; omega)
    rw [e]

/-- The feature rows the body adds at grid coordinates `i` are rows `400 n …` when `i` is the `n`-th point. -/
theorem own_rows_idx (i : grid0.Coords) (n : Nat) (hi : (i 0).val = n) (hn : n < 25) (q : Fin 400) (d : Fin 128) :
    (rRows i).idx (ix2 q d) = ix2 (⟨400 * n + q.val, by have := q.isLt; omega⟩ : Fin 10000) d := by
  funext a
  apply Fin.ext
  match a with
  | ⟨0, _⟩ =>
    show k0_off1 i (0 : Fin 2) + 1 * q.val = 400 * n + q.val
    rw [k0_off1_eq]
    show 400 * (i 0).val + 1 * q.val = 400 * n + q.val
    rw [hi]; omega
  | ⟨1, _⟩ =>
    show k0_off1 i (1 : Fin 2) + 1 * d.val = d.val
    rw [k0_off1_eq]
    show 0 + 1 * d.val = d.val
    omega

/-- What point `t` writes back is block `t` of the layer's output of the four argument arrays. -/
theorem written_back_eq (c : Dev nD) (t : Fin cfg0.N) :
    (dats (F := Ideal) m 0 c).flushed 5 t
      = ((cfg0.win 5).blk t).view.read (Elt Ideal)
          (Cert.Agg.out (m ((c.tc : Thread nD τ).loc main_arg0)) (m ((c.tc : Thread nD τ).loc main_arg1))
            (m ((c.tc : Thread nD τ).loc main_arg2)) (m ((c.tc : Thread nD τ).loc main_arg3))) := by
  show (cfg0.win 5).cut (grid0.coords t) ((dats (F := Ideal) m 0 c).after 5 t) = _
  rw [after_5]
  unfold tile
  rw [View.canon_unit_zero zero_offsets]
  simp only [View.ld_unit_zero (S := S200x10000) zero_offsets, View.ld_unit_zero (S := S10000x128) zero_offsets,
    View.ld_unit_zero (S := S128x128) zero_offsets, View.ld_unit_zero (S := S1x128) zero_offsets]
  obtain ⟨-, -, -, -, -, -, -, -, -, -, e0, e1, eg⟩ := block_indices t
  have ht : t.val < 25 := t.isLt
  funext y
  obtain ⟨q, j, rfl⟩ : ∃ (q : Fin 400) (j : Fin 128), y = ix2 q j := ⟨y 0, y 1, eq_ix2 y⟩
  have hemb : ((cfg0.win 5).blk t).view.emb (ix2 q j)
      = ix2 (⟨400 * t.val + q.val, by have := q.isLt; omega⟩ : Fin 10000) j := by
    funext a
    apply Fin.ext
    match a with
    | ⟨0, _⟩ => show win0_5.index t (0 : Fin 2) * 400 + 1 * q.val = 400 * t.val + q.val; rw [e0]; omega
    | ⟨1, _⟩ => show win0_5.index t (1 : Fin 2) * 128 + 1 * j.val = j.val; rw [e1]; omega
  rw [View.read_apply]
  show k0_pay1 (F := Ideal) (iblk m c 0 t) (iblk m c 2 t) (iblk m c 1 t) (iblk m c 2 t)
      (View.ld (iblk m c 2 t) (rRows (grid0.coords t))) (iblk m c 3 t) (iblk m c 4 t) (ix2 q j)
    = Cert.Agg.out (m ((c.tc : Thread nD τ).loc main_arg0)) (m ((c.tc : Thread nD τ).loc main_arg1))
        (m ((c.tc : Thread nD τ).loc main_arg2)) (m ((c.tc : Thread nD τ).loc main_arg3))
        (((cfg0.win 5).blk t).view.emb (ix2 q j))
  rw [hemb]
  refine tile_entry (m ((c.tc : Thread nD τ).loc main_arg0)) (m ((c.tc : Thread nD τ).loc main_arg1))
    (m ((c.tc : Thread nD τ).loc main_arg2)) (m ((c.tc : Thread nD τ).loc main_arg3)) t.val ht
    (iblk m c 0 t) (iblk m c 1 t) (iblk m c 2 t) (View.ld (iblk m c 2 t) (rRows (grid0.coords t)))
    (iblk m c 3 t) (iblk m c 4 t) ?_ ?_ ?_ ?_ ?_ ?_ q j
  · intro p k
    exact slab_first_apply m c t (ix2 p k) _ rfl rfl
  · intro p k
    exact slab_second_apply m c t (ix2 p k) _ rfl rfl
  · intro k d
    exact features_apply m c t (ix2 k d)
  · intro q' d
    show (iblk m c 2 t : Vec Ideal S10000x128 .f32) ((rRows (grid0.coords t)).idx (ix2 q' d)) = _
    rw [own_rows_idx (grid0.coords t) t.val eg ht q' d]
    exact features_apply m c t _
  · intro d j'
    exact weights_apply m c t d j'
  · intro j'
    exact bias_apply m c t j'

/-- An index of the output array is in point `t`'s block iff each coordinate is in the block's range on its axis. -/
theorem mem_out_block (t : Fin cfg0.N) (i : S10000x128.Idx) :
    i ∈ ((cfg0.win 5).blk t).view.set
      ↔ ∀ a : Fin 2, win0_5.index t a * S400x128.size a ≤ (i a).val
          ∧ (i a).val < win0_5.index t a * S400x128.size a + S400x128.size a := by
  show i ∈ ((View.whole main_v2).slice (win0_5.rect t)).set ↔ _
  rw [View.set_slice_whole, Rect.mem_set_unit]
  exact Iff.rfl

/-- Every output row `r` is in the block of point `r / 400`, which writes back. -/
theorem out_rows_covered (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ : ∃ t : Fin cfg0.N, t.val = (i 0).val / 400 :=
    ⟨⟨(i 0).val / 400, by rw [show cfg0.N = 25 from N_0]; omega⟩, rfl⟩
  obtain ⟨-, -, -, -, -, -, -, -, -, -, e0, e1, -⟩ := block_indices t
  refine ⟨t, flush0_5 t, ?_⟩
  rw [mem_out_block]
  intro a
  match a with
  | ⟨0, _⟩ =>
    show win0_5.index t (0 : Fin 2) * 400 ≤ (i 0).val ∧ (i 0).val < win0_5.index t (0 : Fin 2) * 400 + 400
    rw [e0, ht]; omega
  | ⟨1, _⟩ =>
    show win0_5.index t (1 : Fin 2) * 128 ≤ (i 1).val ∧ (i 1).val < win0_5.index t (1 : Fin 2) * 128 + 128
    rw [e1]; omega

/-- After the 25 write-backs the output array is the layer's output of the four argument arrays. -/
theorem final (c : Dev nD) :
    (dats (F := Ideal) m 0 c).arrAt 5 cfg0.N
      = Cert.Agg.out (m ((c.tc : Thread nD τ).loc main_arg0)) (m ((c.tc : Thread nD τ).loc main_arg1))
          (m ((c.tc : Thread nD τ).loc main_arg2)) (m ((c.tc : Thread nD τ).loc main_arg3)) := by
  exact (dats (F := Ideal) m 0 c).arrAt_eq_of_cover 5
    (Cert.Agg.out (m ((c.tc : Thread nD τ).loc main_arg0)) (m ((c.tc : Thread nD τ).loc main_arg1))
      (m ((c.tc : Thread nD τ).loc main_arg2)) (m ((c.tc : Thread nD τ).loc main_arg3)))
    (fun t _ => written_back_eq m c t) out_rows_covered

/-- The idealized kernel program runs to the end with its result array at the layer's output of the four argument
    arrays, which end unchanged. -/
theorem run : θ_run defs (onTc (τ := τ) (main (F := Ideal))) ⟨m, fun _ => 0, ρ⟩ (fun r => ∀ c : Dev nD,
      r.2.mem ((c.tc : Thread nD τ).loc main_v2)
        = Cert.Agg.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 5).trans (final m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.HandValue

end
-- ==== Proof.RefTerm.lean ====
import proofs.«127754_g84293028151720_cont_9to1_m_1401_8_alg».proof.Proof.Gen.ReferenceIdeal

noncomputable section

/-! # The reference's result as one term of its four arguments

The host program splits the node features into two column halves, multiplies the adjacency matrix with each half,
joins the two products by columns, adds the features, multiplies with the transposed weight matrix, adds the bias
row broadcast down the nodes, and applies the leaky rectifier (compare with zero, scale by the slope, select). -/

namespace Cert.ReferenceIdeal.Hand

open Cert.ReferenceIdeal Cert.ReferenceIdeal.Gen Idealize.ShloMosaic

variable {F : FTy → Type} [FloatOps F]

/-- The features plus the adjacency matrix times the features, the latter computed half by half. -/
def mixedTerm (x : FVec F S10000x128 .f32) (a : FVec F S10000x10000 .f32) : FVec F S10000x128 .f32 :=
  addf x (concatenate S10000x128 1
    [⟨S10000x64, Host.dotGeneral dot_S10000x10000_S10000x64_S10000x64_1_0_0_1_n_n none a (extractStridedSlice S10000x64 ![0, 0] x slices_S10000x128_S10000x64_0_0)⟩,
     ⟨S10000x64, Host.dotGeneral dot_S10000x10000_S10000x64_S10000x64_1_0_0_1_n_n none a (extractStridedSlice S10000x64 ![0, 64] x slices_S10000x128_S10000x64_0_64)⟩]
    concatenates_S10000x64_S10000x64_S10000x128_d1)

/-- The linear layer: the mixed features times the transposed weights, plus the bias row on every node. -/
def linTerm (x : FVec F S10000x128 .f32) (a : FVec F S10000x10000 .f32) (w : FVec F S128x128 .f32) (b : FVec F S128 .f32) :
    FVec F S10000x128 .f32 :=
  addf (Host.dotGeneral dot_S10000x128_S128x128_S10000x128_1_0_0_1_n_n none (mixedTerm x a) (transpose S128x128 [1, 0] w transposes_S128x128_S128x128_1_0))
    (broadcastInDim S10000x128 ![0, 1] bcast_S1x128_S10000x128_0_1 (broadcastInDim S1x128 ![1] bcast_S128_S1x128_1 b))

/-- The leaky rectifier as the host applies it to a whole array. -/
def leakyTerm (z : FVec F S10000x128 .f32) : FVec F S10000x128 .f32 :=
  select (cmpf .oge z (broadcastInDim S10000x128 ![] bcast_S_S10000x128 (constant S_ .f32 0x00000000#32))) z
    (mulf (broadcastInDim S10000x128 ![] bcast_S_S10000x128 (id (constant S_ .f32 0x3C23D70A#32))) z)

/-- The reference's result. -/
def refTerm (x : FVec F S10000x128 .f32) (a : FVec F S10000x10000 .f32) (w : FVec F S128x128 .f32) (b : FVec F S128 .f32) :
    FVec F S10000x128 .f32 :=
  leakyTerm (linTerm x a w b)

end Cert.ReferenceIdeal.Hand

end
-- ==== Proof.RefRun.lean ====
import proofs.«127754_g84293028151720_cont_9to1_m_1401_8_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The host program as one straight line of nineteen operations: the twelve of the entry function (two column
    slices, two products with the adjacency matrix, their join, the sum with the features, the transposed
    weights, the product with them, the bias row broadcast twice, the sum, the slope constant), then the six of the
    leaky rectifier written at its call's own buffers (zero, its broadcast, the comparison, the slope's change of
    format, its broadcast, the scaling), then the one selection of the innermost function. -/
abbrev ops : List (HloOp τ sig (Elt F)) :=
  [ unary main_arg0 main_v0 ((extractStridedSlice S10000x64 ![0, 0] · slices_S10000x128_S10000x64_0_0) : (⟨S10000x128, .f32⟩ : BufTy).Contents (Elt F) → (⟨S10000x64, .f32⟩ : BufTy).Contents (Elt F)),
    unary main_arg0 main_v1 ((extractStridedSlice S10000x64 ![0, 64] · slices_S10000x128_S10000x64_0_64) : (⟨S10000x128, .f32⟩ : BufTy).Contents (Elt F) → (⟨S10000x64, .f32⟩ : BufTy).Contents (Elt F)),
    binary main_arg1 main_v0 main_v2 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    binary main_arg1 main_v1 main_v3 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    binary main_v2 main_v3 main_v4 ((fun a b => concatenate S10000x128 1 [⟨S10000x64, a⟩, ⟨S10000x64, b⟩] concatenates_S10000x64_S10000x64_S10000x128_d1) : (⟨S10000x64, .f32⟩ : BufTy).Contents (Elt F) → (⟨S10000x64, .f32⟩ : BufTy).Contents (Elt F) → (⟨S10000x128, .f32⟩ : BufTy).Contents (Elt F)),
    binary main_arg0 main_v4 main_v5 (addf : (⟨S10000x128, .f32⟩ : BufTy).Contents (Elt F) → (⟨S10000x128, .f32⟩ : BufTy).Contents (Elt F) → (⟨S10000x128, .f32⟩ : BufTy).Contents (Elt F)),
    unary main_arg2 main_v6 ((transpose S128x128 [1, 0] · transposes_S128x128_S128x128_1_0) : (⟨S128x128, .f32⟩ : BufTy).Contents (Elt F) → (⟨S128x128, .f32⟩ : BufTy).Contents (Elt F)),
    binary main_v5 main_v6 main_v7 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v8 (broadcastInDim S1x128 ![1] bcast_S128_S1x128_1 : (⟨S128, .f32⟩ : BufTy).Contents (Elt F) → (⟨S1x128, .f32⟩ : BufTy).Contents (Elt F)),
    unary main_v8 main_v9 (broadcastInDim S10000x128 ![0, 1] bcast_S1x128_S10000x128_0_1 : (⟨S1x128, .f32⟩ : BufTy).Contents (Elt F) → (⟨S10000x128, .f32⟩ : BufTy).Contents (Elt F)),
    binary main_v7 main_v9 main_v10 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x3C23D70A#32),
    TRef.nullary main_call0.cst (constant S_ .f32 0x00000000#32),
    TRef.unary main_call0.cst main_call0.v0 (broadcastInDim S10000x128 ![] bcast_S_S10000x128),
    TRef.binary (.of main_v10) main_call0.v0 main_call0.v1 (cmpf .oge),
    TRef.unary (.of main_cst) main_call0.v2 id,
    TRef.unary main_call0.v2 main_call0.v3 (broadcastInDim S10000x128 ![] bcast_S_S10000x128),
    TRef.binary main_call0.v3 (.of main_v10) main_call0.v4 mulf,
    TRef.ternary main_call0.v1 (.of main_v10) main_call0.v4 main_call0.call0.v0 select ]

/-- The entry function is that straight line: the two called functions unfolded at their calls, the sequencing
    reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every buffer an operation of the line touches is one of the device's own. -/
theorem ops_sub : (ops : List (HloOp τ sig (Elt F))).Forall fun op => op.bufs ⊆ tcRefs τ sig :=
  ⟨unary_bufs_sub .., unary_bufs_sub .., binary_bufs_sub .., binary_bufs_sub .., binary_bufs_sub .., binary_bufs_sub ..,
    unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- The line's fold at the result buffer is the composed term: each operation's value read at its own buffer, every
    other buffer passed through, the typed references' transports the identity at these literal references. -/
theorem out_eq (V : Valuation τ sig (Elt F)) :
    after ops V (main_v11 : DevRef τ sig)
      = refTerm (V (main_arg0 : DevRef τ sig)) (V (main_arg1 : DevRef τ sig)) (V (main_arg2 : DevRef τ sig))
          (V (main_arg3 : DevRef τ sig)) := by
  after_results
  rfl

/-- No operation of the line writes an argument buffer. -/
theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem arg2_eq (V : Valuation τ sig (Elt F)) :
    after ops V (main_arg2 : DevRef τ sig) = V (main_arg2 : DevRef τ sig) := by
  after_results

theorem arg3_eq (V : Valuation τ sig (Elt F)) :
    after ops V (main_arg3 : DevRef τ sig) = V (main_arg3 : DevRef τ sig) := by
  after_results

/-- On the one device, for any float values, from any memory with zero counters: every weakly fair execution of
    the host program terminates with the result array at `refTerm` of the four argument arrays, which end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v11).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.Hand

end
-- ==== Proof.RefValue.lean ====
import proofs.«127754_g84293028151720_cont_9to1_m_1401_8_alg».proof.Proof.RefTerm
import proofs.«127754_g84293028151720_cont_9to1_m_1401_8_alg».proof.Proof.Spec
import proofs.«127754_g84293028151720_cont_9to1_m_1401_8_alg».proof.Proof.LibPlainDot
import Idealize.ShloMosaic.Lib.ValueIdx
import Idealize.ShloMosaic.Lib.Pipeline.Value
import Idealize.ShloMosaic.Lib.ValueLayout

noncomputable section

open scoped BigOperators

namespace Cert.ReferenceIdeal.HandValue

open Cert.ReferenceIdeal Cert.ReferenceIdeal.Gen Cert.ReferenceIdeal.Hand Idealize.ShloMosaic Idealize.ShloMosaic.ValueIdx

/-! ## The layout operations of the reference, read at an entry -/

/-- The weight matrix read transposed: entry `(d, j)` of the transpose is entry `(j, d)` of the matrix. -/
theorem transposeW_apply (w : FVec Ideal S128x128 .f32) (d j : Fin 128) :
    transpose S128x128 [1, 0] w transposes_S128x128_S128x128_1_0 (ix2 d j) = w (ix2 j d) :=
  transpose_ix2_apply w _ d j

/-- The bias as a row, repeated on every node: entry `(r, j)` is `b j`. -/
theorem bias_apply (b : FVec Ideal S128 .f32) (r : Fin 10000) (j : Fin 128) :
    broadcastInDim S10000x128 ![0, 1] bcast_S1x128_S10000x128_0_1 (broadcastInDim S1x128 ![1] bcast_S128_S1x128_1 b) (ix2 r j)
      = b (ix1 j) := by
  refine (broadcastInDim_apply _ _ _ (ix2 r j) (ix2 (0 : Fin 1) j) (fun c => ?_)).trans ?_
  · match c with
    | ⟨0, _⟩ => rfl
    | ⟨1, _⟩ => rfl
  · exact broadcastInDim_apply _ _ _ (ix2 (0 : Fin 1) j) (ix1 j) (fun c => match c with | ⟨0, _⟩ => rfl)

/-- The left column half of the features: entry `(k, e)` is the feature at column `e`. -/
theorem sliceL_apply (x : FVec Ideal S10000x128 .f32) (k : Fin 10000) (e : Fin 64) (d : Fin 128) (hd : d.val = e.val) :
    extractStridedSlice S10000x64 ![0, 0] x slices_S10000x128_S10000x64_0_0 (ix2 k e) = x (ix2 k d) :=
  slice2_axis1_apply 0 x _ k e d (by rw [hd, Nat.zero_add])

/-- The right column half of the features: entry `(k, e)` is the feature at column `64 + e`. -/
theorem sliceR_apply (x : FVec Ideal S10000x128 .f32) (k : Fin 10000) (e : Fin 64) (d : Fin 128) (hd : d.val = 64 + e.val) :
    extractStridedSlice S10000x64 ![0, 64] x slices_S10000x128_S10000x64_0_64 (ix2 k e) = x (ix2 k d) :=
  slice2_axis1_apply 64 x _ k e d hd

/-- Two half-width arrays joined by columns, read at a column of the left half. -/
theorem concat_apply_left (p q : FVec Ideal S10000x64 .f32) (r : Fin 10000) (d : Fin 128) (e : Fin 64) (he : e.val = d.val) :
    concatenate S10000x128 1 [⟨S10000x64, p⟩, ⟨S10000x64, q⟩] concatenates_S10000x64_S10000x64_S10000x128_d1 (ix2 r d)
      = p (ix2 r e) :=
  concatenate_pair_apply_left 1 p q _ (ix2 r d) rfl (ix2 r e) (fun c => match c with | ⟨0, _⟩ => rfl | ⟨1, _⟩ => he)

/-- Two half-width arrays joined by columns, read at a column of the right half. -/
theorem concat_apply_right (p q : FVec Ideal S10000x64 .f32) (r : Fin 10000) (d : Fin 128) (e : Fin 64) (he : e.val + 64 = d.val) :
    concatenate S10000x128 1 [⟨S10000x64, p⟩, ⟨S10000x64, q⟩] concatenates_S10000x64_S10000x64_S10000x128_d1 (ix2 r d)
      = q (ix2 r e) :=
  concatenate_pair_apply_right 1 p q _ (ix2 r d) rfl rfl (ix2 r e)
    (fun c hc => match c, hc with
      | ⟨0, _⟩, _ => rfl
      | ⟨1, _⟩, hc => absurd rfl hc) he

/-! ## The two products, read at an entry -/

/-- The adjacency matrix times a half-width array, at `(r, e)`. -/
theorem dotHalf_apply (a : FVec Ideal S10000x10000 .f32) (y : FVec Ideal S10000x64 .f32) (r : Fin 10000) (e : Fin 64) :
    Host.dotGeneral dot_S10000x10000_S10000x64_S10000x64_1_0_0_1_n_n none a y (ix2 r e)
      = ∑ k : Fin 10000, a (ix2 r k) * y (ix2 k e) :=
  Cert.PlainDot.dotGeneral_apply (M := 10000) (K := 10000) (N := 64) _ rfl none .single a y (ix2 r e)

/-- A full-width array times a square matrix, at `(r, j)`. -/
theorem dotW_apply (m : FVec Ideal S10000x128 .f32) (v : FVec Ideal S128x128 .f32) (r : Fin 10000) (j : Fin 128) :
    Host.dotGeneral dot_S10000x128_S128x128_S10000x128_1_0_0_1_n_n none m v (ix2 r j)
      = ∑ d : Fin 128, m (ix2 r d) * v (ix2 d j) :=
  Cert.PlainDot.dotGeneral_apply (M := 10000) (K := 128) (N := 128) _ rfl none .single m v (ix2 r j)

/-! ## The composed terms, entry by entry -/

/-- The mixed features: a node's own feature plus the adjacency-weighted sum, whichever half the column lies in. -/
theorem mixedTerm_apply (x : FVec Ideal S10000x128 .f32) (a : FVec Ideal S10000x10000 .f32) (r : Fin 10000) (d : Fin 128) :
    mixedTerm (F := Ideal) x a (ix2 r d) = Cert.Agg.mixed x a r d := by
  unfold mixedTerm Cert.Agg.mixed
  rw [addf_apply]
  congr 1
  by_cases hd : d.val < 64
  · rw [concat_apply_left _ _ r d ⟨d.val, hd⟩ rfl, dotHalf_apply]
    refine Finset.sum_congr rfl fun k _ => ?_
    rw [sliceL_apply x k ⟨d.val, hd⟩ d rfl]
  · have hd' : d.val - 64 < 64 := by omega
    rw [concat_apply_right _ _ r d ⟨d.val - 64, hd'⟩ (by show d.val - 64 + 64 = d.val; omega), dotHalf_apply]
    refine Finset.sum_congr rfl fun k _ => ?_
    rw [sliceR_apply x k ⟨d.val - 64, hd'⟩ d (by show d.val = 64 + (d.val - 64); omega)]

/-- The linear layer: the mixed features against row `j` of the weights, plus the bias. -/
theorem linTerm_apply (x : FVec Ideal S10000x128 .f32) (a : FVec Ideal S10000x10000 .f32) (w : FVec Ideal S128x128 .f32)
    (b : FVec Ideal S128 .f32) (r : Fin 10000) (j : Fin 128) :
    linTerm (F := Ideal) x a w b (ix2 r j) = Cert.Agg.lin x a w b r j := by
  unfold linTerm Cert.Agg.lin
  rw [addf_apply, bias_apply, dotW_apply]
  congr 1
  refine Finset.sum_congr rfl fun d _ => ?_
  rw [mixedTerm_apply, transposeW_apply]

/-- On the extended reals the reference's term is the layer's output, entry by entry. -/
theorem refTerm_eq (x : FVec Ideal S10000x128 .f32) (a : FVec Ideal S10000x10000 .f32) (w : FVec Ideal S128x128 .f32) (b : FVec Ideal S128 .f32) :
    refTerm (F := Ideal) x a w b = Cert.Agg.out x a w b := by
  funext i
  obtain ⟨r, j, rfl⟩ : ∃ (r : Fin 10000) (j : Fin 128), i = ix2 r j := ⟨i 0, i 1, eq_ix2 i⟩
  show Cert.Agg.leaky (linTerm (F := Ideal) x a w b (ix2 r j)) = Cert.Agg.leaky (Cert.Agg.lin x a w b r j)
  rw [linTerm_apply]

end Cert.ReferenceIdeal.HandValue

end
-- ==== Proof.lean ====
/-
  One graph-aggregation layer, `leaky ((X + A·X)·Wᵀ + b)`, computed by a pipelined kernel over 25 tiles of 400 output rows
  against the host computation that multiplies the adjacency matrix with the two column halves of the features and
  joins the products. On the extended reals both are the same sums in the same order, entry by entry
  (`Cert.Agg.out`): the kernel's 25 tiles make up the output array, each entry the layer's value at its row and
  column; the host's half-by-half product joined by columns is the whole product. Nothing in the argument needs the
  inputs to be finite. The kernel reads the adjacency matrix through two windows at once; the matrix is held by the
  two at the two halves of its whole share, which is all that the frames ask beyond running the body at every point.
  No operation of the kernel is rewritten on the way to its idealized reading, so that reading is the kernel's own
  text and nothing is left to state about it.
-/
import proofs.«127754_g84293028151720_cont_9to1_m_1401_8_alg».proof.Defs
import proofs.«127754_g84293028151720_cont_9to1_m_1401_8_alg».proof.Proof.Gen.Kernel
import proofs.«127754_g84293028151720_cont_9to1_m_1401_8_alg».proof.Proof.Gen.KernelIdeal
import proofs.«127754_g84293028151720_cont_9to1_m_1401_8_alg».proof.Proof.Gen.ReferenceIdeal
import proofs.«127754_g84293028151720_cont_9to1_m_1401_8_alg».proof.Proof.Gen.Pre_finite_inputs
import proofs.«127754_g84293028151720_cont_9to1_m_1401_8_alg».proof.Proof.KFrame
import proofs.«127754_g84293028151720_cont_9to1_m_1401_8_alg».proof.Proof.KIFrame
import proofs.«127754_g84293028151720_cont_9to1_m_1401_8_alg».proof.Proof.KIValue
import proofs.«127754_g84293028151720_cont_9to1_m_1401_8_alg».proof.Proof.RefRun
import proofs.«127754_g84293028151720_cont_9to1_m_1401_8_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as they were. -/
theorem frame_kernel : Cert.frame_Kernel := fun m ρ _ => Cert.Kernel.Hand.frame m ρ

/-- So does its reading on the extended reals. -/
theorem frame_kernelIdeal : Cert.frame_KernelIdeal := fun m ρ _ => Cert.KernelIdeal.Hand.frame m ρ

/-- The host reference runs to the end and leaves its arguments as they were: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- No operation was rewritten: nothing to state. -/
theorem preserves : Cert.preserves_Kernel_KernelIdeal := trivial

/-- From memories that agree on the four arguments both programs end with the layer's output of those arguments. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  exact Cert.ReferenceIdeal.HandValue.refTerm_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
